-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S800000 : Shape := ⟨1, ![800000]⟩
abbrev S96x96 : Shape := ⟨2, ![96, 96]⟩
abbrev S96 : Shape := ⟨1, ![96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000 : S_.BroadcastsInDim S800000 (![] : Fin 0 → Fin S800000.rank)
  reducesTo_S800000_S_d0 : S800000.ReducesTo [0] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  main_v18

def fn {F : FTy → Type} [FloatOps F] (main_arg0 : FVec F S50000x96 .f32) (main_arg1 : FVec F S800000 .f32) (main_arg2 : FVec F S96x96 .f32) (main_arg3 : FVec F S96 .f32) (main_arg4 : IVec S800000 32) (main_arg5 : IVec S800000 32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S96x96 .f32 := Host.absf main_arg2
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96 .f32 := Host.absf main_arg3
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_v13 main_v16
-- ==== Kernel.lean ====
abbrev S50000x96 : Shape := ⟨2, ![50000, 96]⟩
abbrev S800000 : Shape := ⟨1, ![800000]⟩
abbrev S96x96 : Shape := ⟨2, ![96, 96]⟩
abbrev S96 : Shape := ⟨1, ![96]⟩
abbrev S800000x1 : Shape := ⟨2, ![800000, 1]⟩
abbrev S_ : Shape := ⟨0, ![]⟩
abbrev S800000x96 : Shape := ⟨2, ![800000, 96]⟩
abbrev S1x96 : Shape := ⟨2, ![1, 96]⟩
abbrev S2000x96 : Shape := ⟨2, ![2000, 96]⟩

abbrev nBuf : Space → Nat
  | .hbm => 24
  | .vmem => 6
  | .smem => 0
  | _ => 0

abbrev bufTy : (tb : Table) → Fin (tcTables nBuf tb) → BufTy
  | .hbm, ⟨0, _⟩ => ⟨S50000x96, .f32⟩
  | .hbm, ⟨1, _⟩ => ⟨S800000, .f32⟩
  | .hbm, ⟨2, _⟩ => ⟨S96x96, .f32⟩
  | .hbm, ⟨3, _⟩ => ⟨S96, .f32⟩
  | .hbm, ⟨4, _⟩ => ⟨S800000, .i32⟩
  | .hbm, ⟨5, _⟩ => ⟨S800000, .i32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x96, .f32⟩
  | .hbm, ⟨16, _⟩ => ⟨S800000x96, .f32⟩
  | .hbm, ⟨17, _⟩ => ⟨S800000x96, .f32⟩
  | .hbm, ⟨18, _⟩ => ⟨S_, .f32⟩
  | .hbm, ⟨19, _⟩ => ⟨S50000x96, .f32⟩
  | .hbm, ⟨20, _⟩ => ⟨S800000x1, .i32⟩
  | .hbm, ⟨21, _⟩ => ⟨S50000x96, .f32⟩
  | .hbm, ⟨22, _⟩ => ⟨S1x96, .f32⟩
  | .hbm, ⟨23, _⟩ => ⟨S50000x96, .f32⟩
  | .local _ .vmem, ⟨0, _⟩ => ⟨S2000x96, .f32⟩
  | .local _ .vmem, ⟨1, _⟩ => ⟨S2000x96, .f32⟩
  | .local _ .vmem, ⟨2, _⟩ => ⟨S96x96, .f32⟩
  | .local _ .vmem, ⟨3, _⟩ => ⟨S1x96, .f32⟩
  | .local _ .vmem, ⟨4, _⟩ => ⟨S2000x96, .f32⟩
  | .local _ .vmem, ⟨5, _⟩ => ⟨S2000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  shapeCasts_S96_S1x96 : S96.ShapeCasts S1x96
  inb_S2000x96_S2000x96_0_0 : ∀ a, (![0, 0] : Fin 2 → Nat) a + S2000x96.size a ≤ S2000x96.size a
  h_S2000x96 : 0 < S2000x96.numel
  shapeCasts_S2000x96_S2000x96 : S2000x96.ShapeCasts S2000x96
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S2000x96 : S1x96.Broadcasts S2000x96
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S2000x96_S96x96_S2000x96_1_0_0_1_n_n_wf : DotDims.WF S2000x96 S96x96 S2000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x96.size a ≤ S50000x96.size a
  hwx0_0 : ∀ i : grid0.Coords, EltTy.bits .f32 = 32 ∨ (Rect.block (s := S50000x96) S2000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x96.size a ≤ S1x96.size a
  hwx0_2 : ∀ i : grid0.Coords, EltTy.bits .f32 = 32 ∨ (Rect.block (s := S1x96) S1x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x96.size a ≤ S50000x96.size a
  hwx0_3 : ∀ i : grid0.Coords, EltTy.bits .f32 = 32 ∨ (Rect.block (s := S50000x96) S2000x96.size (cc0_transform_3 i) (hinb0_3 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S2000x96_S96x96_S2000x96_1_0_0_1_n_n : DotDims S2000x96 S96x96 S2000x96 where
  lhsContracting := [1]
  rhsContracting := [0]
  lhsNonContracting := [0]
  rhsNonContracting := [1]
  lhsBatch := []
  rhsBatch := []
  wf := dot_S2000x96_S96x96_S2000x96_1_0_0_1_n_n_wf

abbrev win0_0 : Pipeline.Window sig grid0 :=
  Pipeline.Window.ofSpec (Memref.whole main_v12) S2000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2000x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x96 : Shape := ⟨2, ![50000, 96]⟩
abbrev S800000 : Shape := ⟨1, ![800000]⟩
abbrev S96x96 : Shape := ⟨2, ![96, 96]⟩
abbrev S96 : Shape := ⟨1, ![96]⟩
abbrev S800000x1 : Shape := ⟨2, ![800000, 1]⟩
abbrev S_ : Shape := ⟨0, ![]⟩
abbrev S800000x96 : Shape := ⟨2, ![800000, 96]⟩
abbrev S1x96 : Shape := ⟨2, ![1, 96]⟩

abbrev nBuf : Space → Nat
  | .hbm => 29
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S800000, .f32⟩
  | .hbm, ⟨2, _⟩ => ⟨S96x96, .f32⟩
  | .hbm, ⟨3, _⟩ => ⟨S96, .f32⟩
  | .hbm, ⟨4, _⟩ => ⟨S800000, .i32⟩
  | .hbm, ⟨5, _⟩ => ⟨S800000, .i32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x96, .f32⟩
  | .hbm, ⟨16, _⟩ => ⟨S800000x96, .f32⟩
  | .hbm, ⟨17, _⟩ => ⟨S800000x96, .f32⟩
  | .hbm, ⟨18, _⟩ => ⟨S_, .f32⟩
  | .hbm, ⟨19, _⟩ => ⟨S50000x96, .f32⟩
  | .hbm, ⟨20, _⟩ => ⟨S800000x1, .i32⟩
  | .hbm, ⟨21, _⟩ => ⟨S50000x96, .f32⟩
  | .hbm, ⟨22, _⟩ => ⟨S50000x96, .f32⟩
  | .hbm, ⟨23, _⟩ => ⟨S1x96, .f32⟩
  | .hbm, ⟨24, _⟩ => ⟨S50000x96, .f32⟩
  | .hbm, ⟨25, _⟩ => ⟨S50000x96, .f32⟩
  | .hbm, ⟨26, _⟩ => ⟨S_, .f32⟩
  | .hbm, ⟨27, _⟩ => ⟨S50000x96, .f32⟩
  | .hbm, ⟨28, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf

class Facts : Prop extends Facts₀ where

variable [Facts]
-- ==== Proof.Spec.lean ====
/-
  The dense layer of a graph convolution, entry by entry, on the extended reals.

  After the messages have been summed into their destination nodes (an array `H` of 50000 node rows and 96 features), the layer
  is `relu (H · W + b)`: entry `(p, q)` is the larger of `0` and `(∑ k, H[p, k] · W[k, q]) + b[q]`. It depends on row `p` of `H`,
  column `q` of `W` and the one bias `b[q]` only, which is why a kernel that holds 2000 rows of `H` at a time and a program that
  multiplies the whole array at once compute the same entries: `cell` is that one entry from the row, the column and the bias.
-/
import Idealize.ShloMosaic.PureOps.Ideal
import Idealize.ShloMosaic.Lib.ValueIdx

noncomputable section

namespace Cert.GraphConv

open Idealize.ShloMosaic Idealize.ShloMosaic.ValueIdx

/-- One entry of the layer: `max ((∑ k, h k · w k) + β) 0` for a row `h` of aggregated features, a column `w` of the weight
    and the bias `β` of that column. -/
@[irreducible] def cell (h w : Fin 96 → EReal) (β : EReal) : EReal := max ((∑ k : Fin 96, h k * w k) + β) 0

/-- `relu (H · W + b)` at node `p` and output feature `q`. -/
def entry (H : (⟨2, ![50000, 96]⟩ : Shape).Idx → EReal) (W : (⟨2, ![96, 96]⟩ : Shape).Idx → EReal)
    (b : (⟨1, ![96]⟩ : Shape).Idx → EReal) (p : Fin 50000) (q : Fin 96) : EReal :=
  cell (fun k => H (ix2 p k)) (fun k => W (ix2 k q)) (b (ix1 q))

/-- The whole layer `relu (H · W + b)` as one array of 50000 × 96 entries. -/
def denseRelu (H : (⟨2, ![50000, 96]⟩ : Shape).Idx → EReal) (W : (⟨2, ![96, 96]⟩ : Shape).Idx → EReal)
    (b : (⟨1, ![96]⟩ : Shape).Idx → EReal) : (⟨2, ![50000, 96]⟩ : Shape).Idx → EReal :=
  fun i => entry H W b (i 0) (i 1)

theorem denseRelu_ix2 (H : (⟨2, ![50000, 96]⟩ : Shape).Idx → EReal) (W : (⟨2, ![96, 96]⟩ : Shape).Idx → EReal)
    (b : (⟨1, ![96]⟩ : Shape).Idx → EReal) (p : Fin 50000) (q : Fin 96) :
    denseRelu H W b (ix2 p q) = entry H W b p q := rfl

end Cert.GraphConv

end
-- ==== Proof.Body.lean ====
/-
  What the kernel's body stores, read at one entry of its block.

  The body holds a block `x` of 2000 rows of the aggregated features, the whole weight `w` and the bias as a row `β`. It narrows
  `x` and `w` to bf16 (no change on the extended reals), multiplies them into a zero accumulator, adds the bias row under every
  row and keeps the larger of the result and `0`. So entry `(p, q)` of what it stores is `cell` of row `p` of `x`, column `q` of
  `w` and `β[0, q]`: the matrix product at `(p, q)` is the sum over the one contracted axis, re-indexed by its coordinate.
-/
import proofs.«146964_j9577777070215_1_alg».proof.Proof.Gen.KernelIdeal.Skeleton
import proofs.«146964_j9577777070215_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.GraphConv.Body

open Cert.KernelIdeal Cert.KernelIdeal.Gen Idealize.ShloMosaic Idealize.ShloMosaic.ValueIdx

/-! ## The operand indices of the block's matrix product, coordinate by coordinate -/

theorem lhs_row (i : S2000x96.Idx) (q : dot_S2000x96_S96x96_S2000x96_1_0_0_1_n_n.contr.Idx) :
    (dot_S2000x96_S96x96_S2000x96_1_0_0_1_n_n.lhsIdx i q 0).val = (i 0).val := by
  unfold DotDims.lhsIdx
  rw [dif_neg (show ¬(0 : Fin S2000x96.rank) ∈ dot_S2000x96_S96x96_S2000x96_1_0_0_1_n_n.lhsBatch by decide), dif_pos (show (0 : Fin S2000x96.rank) ∈ dot_S2000x96_S96x96_S2000x96_1_0_0_1_n_n.lhsNonContracting by decide)]
  rfl
theorem lhs_contr (i : S2000x96.Idx) (q : dot_S2000x96_S96x96_S2000x96_1_0_0_1_n_n.contr.Idx) :
    (dot_S2000x96_S96x96_S2000x96_1_0_0_1_n_n.lhsIdx i q 1).val = (q ⟨0, by decide⟩).val :=
  dot_S2000x96_S96x96_S2000x96_1_0_0_1_n_n.lhsIdx_val_of_single rfl i q
theorem rhs_contr (i : S2000x96.Idx) (q : dot_S2000x96_S96x96_S2000x96_1_0_0_1_n_n.contr.Idx) :
    (dot_S2000x96_S96x96_S2000x96_1_0_0_1_n_n.rhsIdx i q 0).val = (q ⟨0, by decide⟩).val :=
  dot_S2000x96_S96x96_S2000x96_1_0_0_1_n_n.rhsIdx_val_of_single rfl i q
theorem rhs_col (i : S2000x96.Idx) (q : dot_S2000x96_S96x96_S2000x96_1_0_0_1_n_n.contr.Idx) :
    (dot_S2000x96_S96x96_S2000x96_1_0_0_1_n_n.rhsIdx i q 1).val = (i 1).val := by
  unfold DotDims.rhsIdx
  rw [dif_neg (show ¬(1 : Fin S96x96.rank) ∈ dot_S2000x96_S96x96_S2000x96_1_0_0_1_n_n.rhsBatch by decide), dif_pos (show (1 : Fin S96x96.rank) ∈ dot_S2000x96_S96x96_S2000x96_1_0_0_1_n_n.rhsNonContracting by decide)]
  rfl

/-- The block's matrix product into the zero accumulator, at `(p, q)`: the sum over `k` of `x[p, k] · w[k, q]`. -/
theorem product_apply (x : FVec Ideal S2000x96 .bf16) (w : FVec Ideal S96x96 .bf16) (p : Fin 2000) (q : Fin 96) :
    matmul (F := Ideal) dot_S2000x96_S96x96_S2000x96_1_0_0_1_n_n none x w (constant S2000x96 .f32 0x00000000#32) (ix2 p q)
      = ∑ k : Fin 96, x (ix2 p k) * w (ix2 k q) := by
  simp only [matmul]
  rw [Ideal.matmul_constant_zero_apply, ← Equiv.sum_comp (contrEquiv1 dot_S2000x96_S96x96_S2000x96_1_0_0_1_n_n 96 rfl rfl).symm]
  refine Finset.sum_congr rfl fun k _ => ?_
  have hk := contrEquiv1_symm_val dot_S2000x96_S96x96_S2000x96_1_0_0_1_n_n 96 rfl rfl k
  have el : dot_S2000x96_S96x96_S2000x96_1_0_0_1_n_n.lhsIdx (ix2 p q) ((contrEquiv1 dot_S2000x96_S96x96_S2000x96_1_0_0_1_n_n 96 rfl rfl).symm k) = ix2 p k := funext fun a => Fin.ext (by
    match a with
    | ⟨0, _⟩ => exact lhs_row _ _
    | ⟨1, _⟩ => exact (lhs_contr _ _).trans hk)
  have er : dot_S2000x96_S96x96_S2000x96_1_0_0_1_n_n.rhsIdx (ix2 p q) ((contrEquiv1 dot_S2000x96_S96x96_S2000x96_1_0_0_1_n_n 96 rfl rfl).symm k) = ix2 k q := funext fun a => Fin.ext (by
    match a with
    | ⟨0, _⟩ => exact (rhs_contr _ _).trans hk
    | ⟨1, _⟩ => exact rhs_col _ _)
  rw [el, er]

/-- THE BODY'S STORE AT `(p, q)`: `cell` of row `p` of the block, column `q` of the weight and the bias row's entry `q`. -/
theorem stored_apply (x : Vec Ideal S2000x96 .f32) (w : Vec Ideal S96x96 .f32) (β : Vec Ideal S1x96 .f32) (p : Fin 2000) (q : Fin 96) :
    k0_pay1 (F := Ideal) x w β (ix2 p q) = cell (fun k => x (ix2 p k)) (fun k => w (ix2 k q)) (β (ix2 (0 : Fin 1) q)) := by
  unfold k0_pay1 cell
  rw [maximumf_apply, addf_apply, broadcast_apply, product_apply, broadcastTo_1b_ab_apply, shapeCast_self, shapeCast_self]
  show max ((∑ k : Fin 96, x (ix2 p k) * w (ix2 k q)) + β (ix2 (0 : Fin 1) q)) (Ideal.ofBits .f32 0x00000000#32) = _
  rw [Ideal.ofBits_zero_f32]

end Cert.GraphConv.Body

end
-- ==== Proof.KernelValue.lean ====
/-
  The kernel's result array: every entry is the dense layer's entry.

  The grid has 25 points; point `t` holds rows `2000·t … 2000·t + 1999` of the aggregated features, the whole weight and the
  bias as a row of a `1 × 96` array (the host reshaped it), and writes back rows `2000·t …` of the result. Entry `(p, q)` of its
  block is `cell` of the block's row `p`, the weight's column `q` and the bias row's entry `q` — which are row `2000·t + p` of the
  aggregated array, the same column, and `b[q]`: the layer's entry `(2000·t + p, q)`. The 25 blocks tile the 50000 rows (row `r`
  lies in block `r / 2000`), so the array after the run is `relu (H · W + b)` everywhere.
-/
import proofs.«146964_j9577777070215_1_alg».proof.Proof.Gen.KernelIdeal.Value
import proofs.«146964_j9577777070215_1_alg».proof.Proof.Body
import Idealize.ShloMosaic.Lib.StableHlo.Run
import Idealize.ShloMosaic.Lib.ValueLayout

set_option maxRecDepth 16384

noncomputable section

namespace Cert.GraphConv.KernelValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## One entry of a block, over plain arrays -/

/-- If row `j 0` of the block `x` is row `i 0` of `H`, column `j 1` of `w` is column `i 1` of `W`, and the bias row's entry
    `j 1` is `b`'s entry `i 1`, the body's store at `j` is the layer's entry at `i`. -/
theorem stored_eq_layer (x : Vec Ideal S2000x96 .f32) (w : Vec Ideal S96x96 .f32) (β : Vec Ideal S1x96 .f32)
    (H : S50000x96.Idx → EReal) (W : S96x96.Idx → EReal) (b : S96.Idx → EReal) (j : S2000x96.Idx) (i : S50000x96.Idx)
    (hx : ∀ k : Fin 96, x (ix2 (j 0) k) = H (ix2 (i 0) k))
    (hw : ∀ k : Fin 96, w (ix2 k (j 1)) = W (ix2 k (i 1)))
    (hβ : β (ix2 (0 : Fin 1) (j 1)) = b (ix1 (i 1))) :
    k0_pay1 (F := Ideal) x w β j = denseRelu H W b i := by
  refine (congrArg (k0_pay1 (F := Ideal) x w β) (eq_ix2 j)).trans ((Body.stored_apply x w β (j 0) (j 1)).trans ?_)
  unfold denseRelu entry
  exact congr (congr (congrArg cell (funext hx)) (funext hw)) hβ

/-! ## The bias row the region finds -/

/-- The `1 × 96` array the third window stages is the bias reshaped. -/
theorem bias_row (c : Dev nD) :
    (V m c main_v13 : S1x96.Idx → EReal) = shapeCast S1x96 (m ((c : Thread nD τ).loc main_arg3)) shapeCasts_S96_S1x96 := by
  dsimp only [Gen.V, Gen.hostOps0]; after_results; rfl

/-- Its entry `(0, q)` is `b[q]`. -/
theorem bias_at (c : Dev nD) (q : Fin 96) :
    (V m c main_v13 : S1x96.Idx → EReal) (ix2 (0 : Fin 1) q) = (m ((c : Thread nD τ).loc main_arg3) : S96.Idx → EReal) (ix1 q) := by
  rw [bias_row]
  exact shapeCast_a_1a_apply _ _ 0 q

/-! ## What each point writes back -/

theorem zeros : (![0, 0] : Fin 2 → Nat) = fun _ => 0 := funext fun a => by fin_cases a <;> rfl

/-- The printed index maps over the 25 points: the features' block and the result's block are block `t` of their arrays along
    the rows, the weight and the bias row are their arrays whole. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- POINT `t` WRITES BACK block `t` of the layer of the aggregated features, the weight and the bias as the region finds them. -/
theorem flushed_eq (c : Dev nD) (t : Fin cfg0.N) :
    (dats m 0 c).flushed 3 t = ((cfg0.win 3).blk t).view.read (Elt Ideal)
      (denseRelu (V m c main_v12) (V m c main_arg2) (m ((c : Thread nD τ).loc main_arg3))) := by
  rw [Cert.KernelIdeal.Value.flushed3]
  unfold out0_3
  rw [View.canon_unit_zero zeros]
  simp only [View.ld_unit_zero (S := S2000x96) zeros, View.ld_unit_zero (S := S96x96) zeros, View.ld_unit_zero (S := S1x96) zeros]
  obtain ⟨e00, e01, e10, e11, e20, e21, e30, e31⟩ := block_indices t
  funext j
  rw [View.read_apply, cast_eq]
  have hj0 : (j 0).val < 2000 := (j 0).isLt
  have hj1 : (j 1).val < 96 := (j 1).isLt
  refine stored_eq_layer (iblk m c 0 t) (iblk m c 1 t) (iblk m c 2 t) (V m c main_v12) (V m c main_arg2)
    (m ((c : Thread nD τ).loc main_arg3)) ((win0 3).xinj (grid0.coords t) j) (((cfg0.win 3).blk t).view.emb j)
    (fun k => ?_) (fun k => ?_) ?_
  · unfold iblk
    rw [View.read_apply, cast_eq]
    refine congrArg (V m c main_v12) (funext fun a => Fin.ext ?_)
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 96 + 1 * k.val = k.val; omega
  · unfold iblk
    rw [View.read_apply, cast_eq]
    refine congrArg (V m c main_arg2) (funext fun a => Fin.ext ?_)
    match a with
    | ⟨0, _⟩ => show win0_1.index t (0 : Fin 2) * 96 + 1 * k.val = k.val; omega
    | ⟨1, _⟩ => show win0_1.index t (1 : Fin 2) * 96 + 1 * (j 1).val = win0_3.index t (1 : Fin 2) * 96 + 1 * (j 1).val; omega
  · unfold iblk
    rw [View.read_apply, cast_eq]
    refine (congrArg (V m c main_v13) (funext fun a => Fin.ext ?_)).trans (bias_at m c ((((cfg0.win 3).blk t).view.emb j) 1))
    match a with
    | ⟨0, _⟩ => show win0_2.index t (0 : Fin 2) * 1 + 1 * 0 = 0; omega
    | ⟨1, _⟩ => show win0_2.index t (1 : Fin 2) * 96 + 1 * (j 1).val = win0_3.index t (1 : Fin 2) * 96 + 1 * (j 1).val; omega

/-! ## The blocks tile the array -/

/-- An index of the result array is in point `t`'s block iff each coordinate is in the block's range on its axis. -/
theorem mem_block (t : Fin cfg0.N) (i : S50000x96.Idx) :
    i ∈ ((cfg0.win 3).blk t).view.set ↔ ∀ a : Fin 2, win0_3.index t a * S2000x96.size a ≤ (i a).val ∧ (i a).val < win0_3.index t a * S2000x96.size a + S2000x96.size a := by
  show i ∈ ((View.whole main_v14).slice (win0_3.rect t)).set ↔ _
  rw [View.set_slice_whole, Rect.mem_set_unit]
  exact Iff.rfl

/-- Row `r` lies in block `r / 2000`. -/
theorem covered (i : S50000x96.Idx) : ∃ t : Fin cfg0.N, (cfg0.win 3).flush t = true ∧ i ∈ ((cfg0.win 3).blk t).view.set := by
  have hi0 : (i 0).val < 50000 := (i 0).isLt
  have hi1 : (i 1).val < 96 := (i 1).isLt
  have hN : cfg0.N = 25 := N_0
  refine ⟨⟨(i 0).val / 2000, by rw [hN]; omega⟩, flush0_3 _, ?_⟩
  obtain ⟨-, -, -, -, -, -, e30, e31⟩ := block_indices ⟨(i 0).val / 2000, by rw [hN]; omega⟩
  rw [mem_block]
  intro a
  match a with
  | ⟨0, _⟩ =>
    show win0_3.index _ (0 : Fin 2) * 2000 ≤ (i 0).val ∧ (i 0).val < win0_3.index _ (0 : Fin 2) * 2000 + 2000
    rw [e30]; show (i 0).val / 2000 * 2000 ≤ (i 0).val ∧ (i 0).val < (i 0).val / 2000 * 2000 + 2000; omega
  | ⟨1, _⟩ =>
    show win0_3.index _ (1 : Fin 2) * 96 ≤ (i 1).val ∧ (i 1).val < win0_3.index _ (1 : Fin 2) * 96 + 96
    rw [e31]; omega

/-- THE RESULT ARRAY after the run is the layer of the aggregated features, the weight and the bias. -/
theorem final (c : Dev nD) :
    (dats m 0 c).arrAt 3 cfg0.N = denseRelu (V m c main_v12) (V m c main_arg2) (m ((c : Thread nD τ).loc main_arg3)) :=
  (dats m 0 c).arrAt_eq_of_cover 3 _ (fun t _ => flushed_eq m c t) covered

/-! ## The run, read -/

/-- Every weakly fair execution of the kernel's program ends with the result array at `relu (H · W + b)`, `H` the aggregated
    features as the region found them, and with the arguments as launched. -/
theorem run : θ_run defs (onTc (τ := τ) (main (F := Ideal))) ⟨m, fun _ => 0, ρ⟩ fun r => ∀ c : Dev nD,
      r.2.mem ((c : Thread nD τ).loc main_v14)
        = denseRelu (V m c main_v12) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1.trans (final m c)).trans (by rw [V_main_arg2]), (h c).2⟩)
    (Cert.KernelIdeal.Value.run_blocks m ρ)

end Cert.GraphConv.KernelValue

end
-- ==== Proof.RefValue.lean ====
/-
  The reference's result is the same layer.

  After the same aggregation the reference multiplies the whole `50000 × 96` array of aggregated features by the weight, adds
  the bias (a `96`-vector laid under every row) and keeps the larger of each entry and `0`. Read at an index `i` that is
  `max ((∑ k, H[i 0, k] · W[k, i 1]) + b[i 1]) 0`: the layer's entry, with `H` the aggregation's own term left as it is.
-/
import proofs.«146964_j9577777070215_1_alg».proof.Proof.Gen.ReferenceIdeal.Read
import proofs.«146964_j9577777070215_1_alg».proof.Proof.Spec

noncomputable section

namespace Cert.GraphConv.RefValue

open Cert.ReferenceIdeal Cert.ReferenceIdeal.Gen Cert.ReferenceIdeal.Read Idealize.ShloMosaic Idealize.ShloMosaic.ValueIdx

/-- THE REFERENCE'S LAST STAGE is `relu (H · W + b)` of its own aggregated features `H`, the weight and the bias. -/
theorem result_eq (x0 : (⟨S50000x96, .f32⟩ : BufTy).Contents (Elt Ideal)) (x1 : (⟨S800000, .f32⟩ : BufTy).Contents (Elt Ideal))
    (x2 : (⟨S96x96, .f32⟩ : BufTy).Contents (Elt Ideal)) (x3 : (⟨S96, .f32⟩ : BufTy).Contents (Elt Ideal))
    (x4 x5 : (⟨S800000, .i32⟩ : BufTy).Contents (Elt Ideal)) :
    val_main_v17 (F := Ideal) x0 x1 x2 x3 x4 x5 = denseRelu (val_main_v12 (F := Ideal) x0 x1 x4 x5) x2 x3 := by
  funext i
  have hl : ∀ k : Fin 96, lidx_main_v13 i k = ix2 (i 0) k := fun k => funext fun a => by
    match a with
    | ⟨0, _⟩ => rfl
    | ⟨1, _⟩ => rfl
  have hr : ∀ k : Fin 96, ridx_main_v13 i k = ix2 k (i 1) := fun k => funext fun a => by
    match a with
    | ⟨0, _⟩ => rfl
    | ⟨1, _⟩ => rfl
  have hb : idx_main_v14 (idx_main_v15 i) = ix1 (i 1) := funext fun a => by
    match a with
    | ⟨0, _⟩ => rfl
  rw [val_main_v17_apply, val_main_v16_apply, val_main_v13_apply, val_main_v15_apply, val_main_v14_apply,
    val_main_call0_v0_apply, val_main_call0_cst_apply]
  simp only [hl, hr, hb]
  unfold denseRelu entry cell
  show max ((∑ k : Fin 96, val_main_v12 (F := Ideal) x0 x1 x4 x5 (ix2 (i 0) k) * x2 (ix2 k (i 1))) + x3 (ix1 (i 1)))
      (Ideal.ofBits .f32 0x00000000#32) = _
  rw [Ideal.ofBits_zero_f32]

end Cert.GraphConv.RefValue

end
-- ==== Proof.Aggregation.lean ====
/-
  Both programs aggregate the messages in the same way.

  Before the dense layer each program forms, for every edge `e`, the source node's feature row `x[col e]` (a negative `col e`
  counted from the end) scaled by the edge's weight, and adds it into row `row e` of an array of zeros. The two programs spell
  this with the same operations on the same literals, so the array the kernel's region finds in its first window is the
  reference's aggregation stage of the same arguments, operation for operation.
-/
import proofs.«146964_j9577777070215_1_alg».proof.Proof.Gen.KernelIdeal.Frame
import proofs.«146964_j9577777070215_1_alg».proof.Proof.Gen.ReferenceIdeal.Read
import Idealize.ShloMosaic.Lib.StableHlo.Run

noncomputable section

namespace Cert.GraphConv.Aggregation

open Idealize.ShloMosaic Idealize.ShloMosaic.TcCoe Idealize.SL.Sem Idealize.ShloMosaic.StableHlo
open Cert.KernelIdeal Cert.KernelIdeal.Gen

/-- The aggregated features as the kernel's region finds them are the reference's aggregation stage of the kernel's arguments. -/
theorem found_eq (m : (ℓ : Loc nD τ sig) → Buf (Elt Ideal) ℓ) (c : Dev nD) :
    (V m c main_v12 : S50000x96.Idx → EReal)
      = Cert.ReferenceIdeal.Read.val_main_v12 (F := Ideal) (m ((c : Thread nD τ).loc main_arg0)) (m ((c : Thread nD τ).loc main_arg1))
          (m ((c : Thread nD τ).loc main_arg4)) (m ((c : Thread nD τ).loc main_arg5)) := by
  dsimp only [Gen.V, Gen.hostOps0]
  after_results
  simp only [Cert.ReferenceIdeal.Read.val_main_v12, Cert.ReferenceIdeal.Read.val_main_v11, Cert.ReferenceIdeal.Read.val_main_v10,
    Cert.ReferenceIdeal.Read.val_main_cst, Cert.ReferenceIdeal.Read.val_main_v9, Cert.ReferenceIdeal.Read.val_main_v8,
    Cert.ReferenceIdeal.Read.val_main_v7, Cert.ReferenceIdeal.Read.val_main_v6, Cert.ReferenceIdeal.Read.val_main_v5,
    Cert.ReferenceIdeal.Read.val_main_v4, Cert.ReferenceIdeal.Read.val_main_v3, Cert.ReferenceIdeal.Read.val_main_c_0,
    Cert.ReferenceIdeal.Read.val_main_v2, Cert.ReferenceIdeal.Read.val_main_v1, Cert.ReferenceIdeal.Read.val_main_c,
    Cert.ReferenceIdeal.Read.val_main_v0]
  rfl

end Cert.GraphConv.Aggregation

end
-- ==== Proof.lean ====
/-
  A graph-convolution layer: the messages `edge_w[e] · x[col e]` are summed into their destination rows `row e`, and the result
  `H` goes through the dense layer `relu (H · W + b)`. The kernel does the aggregation on the host and the dense layer in 25
  blocks of 2000 rows, with the block and the weight narrowed to bf16 before the product; the reference does the aggregation the
  same way and the dense layer as one product of the whole array.

  On the extended reals a change of float format is the identity and a matrix product is the plain sum over the contracted
  axis, so both programs leave `max ((∑ k, H[p, k] · W[k, q]) + b[q]) 0` at every `(p, q)`, with the same `H`: no law beyond
  re-indexing that sum is needed, and the finiteness of the inputs is never used. The two programs' frames are the generated
  ones; the kernel's idealization rewrote nothing, so `preserves` has nothing to state.
-/
import proofs.«146964_j9577777070215_1_alg».proof.Defs
import proofs.«146964_j9577777070215_1_alg».proof.Proof.Gen.Kernel
import proofs.«146964_j9577777070215_1_alg».proof.Proof.Gen.Kernel.Skeleton
import proofs.«146964_j9577777070215_1_alg».proof.Proof.Gen.Kernel.Launch
import proofs.«146964_j9577777070215_1_alg».proof.Proof.Gen.Kernel.Points
import proofs.«146964_j9577777070215_1_alg».proof.Proof.Gen.Kernel.Frame
import proofs.«146964_j9577777070215_1_alg».proof.Proof.Gen.KernelIdeal
import proofs.«146964_j9577777070215_1_alg».proof.Proof.Gen.KernelIdeal.Skeleton
import proofs.«146964_j9577777070215_1_alg».proof.Proof.Gen.KernelIdeal.Launch
import proofs.«146964_j9577777070215_1_alg».proof.Proof.Gen.KernelIdeal.Points
import proofs.«146964_j9577777070215_1_alg».proof.Proof.Gen.KernelIdeal.Frame
import proofs.«146964_j9577777070215_1_alg».proof.Proof.Gen.ReferenceIdeal
import proofs.«146964_j9577777070215_1_alg».proof.Proof.Gen.Pre_finite_inputs
import proofs.«146964_j9577777070215_1_alg».proof.Proof.Gen.KernelIdeal.Value
import proofs.«146964_j9577777070215_1_alg».proof.Proof.Gen.ReferenceIdeal.Run
import proofs.«146964_j9577777070215_1_alg».proof.Proof.Gen.ReferenceIdeal.Read
import proofs.«146964_j9577777070215_1_alg».proof.Proof.KernelValue
import proofs.«146964_j9577777070215_1_alg».proof.Proof.RefValue
import proofs.«146964_j9577777070215_1_alg».proof.Proof.Aggregation
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `relu (H · W + b)` of the same aggregated features `H`, weight and bias: the kernel's
    by its blocks, the reference's by its last stage read at an index, and `H` is one term of the arguments on both sides. -/
theorem algebraic : Cert.algebraic_KernelIdeal_ReferenceIdeal := by
  intro m ρ m' ρ' _ hagree
  refine ⟨fun c => Cert.GraphConv.denseRelu (Cert.KernelIdeal.Gen.V m c Cert.KernelIdeal.main_v12)
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.GraphConv.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.GraphConv.RefValue.result_eq, (hagree c).1, (hagree c).2.1, (hagree c).2.2.1,
    (hagree c).2.2.2.1, (hagree c).2.2.2.2.1, (hagree c).2.2.2.2.2]
  exact congrArg (fun H => Cert.GraphConv.denseRelu H
      (m ((c : Thread Cert.KernelIdeal.nD Cert.KernelIdeal.τ).loc Cert.KernelIdeal.main_arg2))
      (m ((c : Thread Cert.KernelIdeal.nD Cert.KernelIdeal.τ).loc Cert.KernelIdeal.main_arg3)))
    (Cert.GraphConv.Aggregation.found_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
